-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x16384 : Shape := ⟨2, ![8192, 16384]⟩
abbrev S8192x256 : Shape := ⟨2, ![8192, 256]⟩
abbrev S16384x256 : Shape := ⟨2, ![16384, 256]⟩
abbrev S_ : Shape := ⟨0, ![]⟩

class Facts : Prop where
  bcast_S_S8192x16384 : S_.BroadcastsInDim S8192x16384 (![] : Fin 0 → Fin S8192x16384.rank)
  reducesTo_S8192x16384_S_d0_1 : S8192x16384.ReducesTo [0, 1] S_
  h_S_ : 0 < S_.numel
  bcast_S_S8192x256 : S_.BroadcastsInDim S8192x256 (![] : Fin 0 → Fin S8192x256.rank)
  reducesTo_S8192x256_S_d0_1 : S8192x256.ReducesTo [0, 1] S_
  bcast_S_S16384x256 : S_.BroadcastsInDim S16384x256 (![] : Fin 0 → Fin S16384x256.rank)
  reducesTo_S16384x256_S_d0_1 : S16384x256.ReducesTo [0, 1] S_

variable [Facts]

def fn_part1 {F : FTy → Type} [FloatOps F] (main_v13 : IVec S_ 1) (main_v16 : IVec S8192x16384 1) : IVec S_ 1 :=
  let main_c_5 : IVec S_ 1 := constantI S_ 1 1#1
  let main_v17 : IVec S_ 1 := (fun x v => Host.reduce IntOp.andi x v reducesTo_S8192x16384_S_d0_1 h_S_) main_v16 main_c_5
  let main_v18 : IVec S_ 1 := andi main_v13 main_v17
  main_v18

def fn {F : FTy → Type} [FloatOps F] (main_arg0 : FVec F S8192x16384 .f32) (main_arg1 : FVec F S8192x256 .f32) (main_arg2 : FVec F S16384x256 .f32) (main_arg3 : FVec F S8192x16384 .f32) : IVec S_ 1 :=
  let main_v0 : FVec F S8192x16384 .f32 := Host.absf main_arg0
  let main_cst : FVec F S_ .f32 := constant S_ .f32 0x7F800000#32
  let main_v1 : FVec F S8192x16384 .f32 := broadcastInDim S8192x16384 ![] bcast_S_S8192x16384 main_cst
  let main_v2 : IVec S8192x16384 1 := cmpf .olt main_v0 main_v1
  let main_c : IVec S_ 1 := constantI S_ 1 1#1
  let main_v3 : IVec S_ 1 := (fun x v => Host.reduce IntOp.andi x v reducesTo_S8192x16384_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  let main_v9 : FVec F S16384x256 .f32 := Host.absf main_arg2
  let main_cst_2 : FVec F S_ .f32 := constant S_ .f32 0x7F800000#32
  let main_v10 : FVec F S16384x256 .f32 := broadcastInDim S16384x256 ![] bcast_S_S16384x256 main_cst_2
  let main_v11 : IVec S16384x256 1 := cmpf .olt main_v9 main_v10
  let main_c_3 : IVec S_ 1 := constantI S_ 1 1#1
  let main_v12 : IVec S_ 1 := (fun x v => Host.reduce IntOp.andi x v reducesTo_S16384x256_S_d0_1 h_S_) main_v11 main_c_3
  let main_v13 : IVec S_ 1 := andi main_v8 main_v12
  let main_v14 : FVec F S8192x16384 .f32 := Host.absf main_arg3
  let main_cst_4 : FVec F S_ .f32 := constant S_ .f32 0x7F800000#32
  let main_v15 : FVec F S8192x16384 .f32 := broadcastInDim S8192x16384 ![] bcast_S_S8192x16384 main_cst_4
  let main_v16 : IVec S8192x16384 1 := cmpf .olt main_v14 main_v15
  fn_part1 (F := F) main_v13 main_v16
-- ==== Kernel.lean ====
abbrev S8192x16384 : Shape := ⟨2, ![8192, 16384]⟩
abbrev S8192x256 : Shape := ⟨2, ![8192, 256]⟩
abbrev S16384x256 : Shape := ⟨2, ![16384, 256]⟩
abbrev S8x1x128 : Shape := ⟨3, ![8, 1, 128]⟩
abbrev S1024x2048 : Shape := ⟨2, ![1024, 2048]⟩
abbrev S1024x256 : Shape := ⟨2, ![1024, 256]⟩
abbrev S2048x256 : Shape := ⟨2, ![2048, 256]⟩
abbrev S1x1x128 : Shape := ⟨3, ![1, 1, 128]⟩
abbrev S256x2048 : Shape := ⟨2, ![256, 2048]⟩
abbrev S1x1024x2048 : Shape := ⟨3, ![1, 1024, 2048]⟩
abbrev S1 : Shape := ⟨1, ![1]⟩
abbrev S1x1x1 : Shape := ⟨3, ![1, 1, 1]⟩
abbrev S_ : Shape := ⟨0, ![]⟩
abbrev S8192 : Shape := ⟨1, ![8192]⟩
abbrev S16384 : Shape := ⟨1, ![16384]⟩

abbrev nBuf : Space → Nat
  | .hbm => 27
  | .vmem => 11
  | .smem => 0
  | _ => 0

abbrev bufTy : (tb : Table) → Fin (tcTables nBuf tb) → BufTy
  | .hbm, ⟨0, _⟩ => ⟨S8192x16384, .f32⟩
  | .hbm, ⟨1, _⟩ => ⟨S8192x256, .f32⟩
  | .hbm, ⟨2, _⟩ => ⟨S16384x256, .f32⟩
  | .hbm, ⟨3, _⟩ => ⟨S8192x16384, .f32⟩
  | .hbm, ⟨4, _⟩ => ⟨S8192x256, .bf16⟩
  | .hbm, ⟨5, _⟩ => ⟨S16384x256, .bf16⟩
  | .hbm, ⟨6, _⟩ => ⟨S8x1x128, .f32⟩
  | .hbm, ⟨7, _⟩ => ⟨S_, .f32⟩
  | .hbm, ⟨8, _⟩ => ⟨S_, .f32⟩
  | .hbm, ⟨9, _⟩ => ⟨S8192x256, .f32⟩
  | .hbm, ⟨10, _⟩ => ⟨S_, .f32⟩
  | .hbm, ⟨11, _⟩ => ⟨S8192, .f32⟩
  | .hbm, ⟨12, _⟩ => ⟨S8192, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S16384x256, .f32⟩
  | .hbm, ⟨18, _⟩ => ⟨S_, .f32⟩
  | .hbm, ⟨19, _⟩ => ⟨S16384, .f32⟩
  | .hbm, ⟨20, _⟩ => ⟨S16384, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .local _ .vmem, ⟨0, _⟩ => ⟨S1024x2048, .f32⟩
  | .local _ .vmem, ⟨1, _⟩ => ⟨S1024x2048, .f32⟩
  | .local _ .vmem, ⟨2, _⟩ => ⟨S1024x2048, .f32⟩
  | .local _ .vmem, ⟨3, _⟩ => ⟨S1024x2048, .f32⟩
  | .local _ .vmem, ⟨4, _⟩ => ⟨S1024x256, .bf16⟩
  | .local _ .vmem, ⟨5, _⟩ => ⟨S1024x256, .bf16⟩
  | .local _ .vmem, ⟨6, _⟩ => ⟨S2048x256, .bf16⟩
  | .local _ .vmem, ⟨7, _⟩ => ⟨S2048x256, .bf16⟩
  | .local _ .vmem, ⟨8, _⟩ => ⟨S1x1x128, .f32⟩
  | .local _ .vmem, ⟨9, _⟩ => ⟨S1x1x128, .f32⟩
  | .local _ .vmem, ⟨10, _⟩ => ⟨S1x1x128, .f32⟩
  | _, _ => ⟨S8192x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_call0_v0 : Ref sig .tc := ⟨.hbm, 9, rfl⟩
abbrev main_call0_cst : Ref sig .tc := ⟨.hbm, 10, rfl⟩
abbrev main_call0_v1 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_call1_v0 : Ref sig .tc := ⟨.hbm, 17, rfl⟩
abbrev main_call1_cst : Ref sig .tc := ⟨.hbm, 18, rfl⟩
abbrev main_call1_v1 : Ref sig .tc := ⟨.hbm, 19, rfl⟩
abbrev main_v7 : Ref sig .tc := ⟨.hbm, 20, rfl⟩
abbrev main_cst_2 : Ref sig .tc := ⟨.hbm, 21, rfl⟩
abbrev main_v8 : Ref sig .tc := ⟨.hbm, 22, rfl⟩
abbrev main_cst_3 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v30 : BitVec 1 := Scalar.cmpi .eq arg1 c7_i32
  let v31 : BitVec 32 := Scalar.extui v30
  let c0_i32_16 : BitVec 32 := 0#32
  let v32 : BitVec 1 := Scalar.cmpi .ne v31 c0_i32_16
  v32

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bitsLt_bf16_f32 : FTy.bits .bf16 < FTy.bits .f32
  inb_S1x1x128_S1x1x128_0_0_0 : ∀ a, (![0, 0, 0] : Fin 3 → Nat) a + S1x1x128.size a ≤ S1x1x128.size a
  h_S1x1x128 : 0 < S1x1x128.numel
  shapeCasts_S1x1x128_S1x1x128 : S1x1x128.ShapeCasts S1x1x128
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  transposes_S2048x256_p1_0_S256x2048 : S2048x256.Transposes [1, 0] S256x2048
  inb_S1024x2048_S1024x2048_0_0 : ∀ a, (![0, 0] : Fin 2 → Nat) a + S1024x2048.size a ≤ S1024x2048.size a
  h_S1024x2048 : 0 < S1024x2048.numel
  shapeCasts_S1024x2048_S1x1024x2048 : S1024x2048.ShapeCasts S1x1024x2048
  reduces_S1x1024x2048_S1 : S1x1024x2048.Reduces [1, 2] S1
  shapeCasts_S1_S1x1x1 : S1.ShapeCasts S1x1x1
  inpos_S1x1x1_p0_0_0 : ∀ a, (![0, 0, 0] : Fin 3 → Nat) a < S1x1x1.size a
  iota_S1x1x128_d2_w32 : S1x1x128.Iotas .tc 32 [2]
  natLt_1_32 : 1 < 32
  reducesTo_S8x1x128_S_d0_1_2 : S8x1x128.ReducesTo [0, 1, 2] S_
  h_S_ : 0 < S_.numel
  reducesTo_S8192x256_S8192_d1 : S8192x256.ReducesTo [1] S8192
  reducesTo_S8192_S_d0 : S8192.ReducesTo [0] S_
  reducesTo_S16384x256_S16384_d1 : S16384x256.ReducesTo [1] S16384
  reducesTo_S16384_S_d0 : S16384.ReducesTo [0] S_
  dot_S1024x256_S256x2048_S1024x2048_1_0_0_1_n_n_wf : DotDims.WF S1024x256 S256x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x16384.size a
  hwx0_0 : ∀ i : grid0.Coords, EltTy.bits .f32 = 32 ∨ (Rect.block (s := S8192x16384) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S8192x16384.size a
  hwx0_1 : ∀ i : grid0.Coords, EltTy.bits .f32 = 32 ∨ (Rect.block (s := S8192x16384) S1024x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S8192x256.size a
  hwx0_2 : ∀ i : grid0.Coords, EltTy.bits .bf16 = 32 ∨ (Rect.block (s := S8192x256) S1024x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x256.size a ≤ S16384x256.size a
  hwx0_3 : ∀ i : grid0.Coords, EltTy.bits .bf16 = 32 ∨ (Rect.block (s := S16384x256) S2048x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x128.size a ≤ S8x1x128.size a
  hwx0_4 : ∀ i : grid0.Coords, EltTy.bits .f32 = 32 ∨ (Rect.block (s := S8x1x128) S1x1x128.size (cc0_transform_4 i) (hinb0_4 i)).WholeWords (EltTy.packing .f32)

variable [Facts₀]

def dot_S1024x256_S256x2048_S1024x2048_1_0_0_1_n_n : DotDims S1024x256 S256x2048 S1024x2048 where
  lhsContracting := [1]
  rhsContracting := [0]
  lhsNonContracting := [0]
  rhsNonContracting := [1]
  lhsBatch := []
  rhsBatch := []
  wf := dot_S1024x256_S256x2048_S1024x2048_1_0_0_1_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2048x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x1x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x16384 : Shape := ⟨2, ![8192, 16384]⟩
abbrev S8192x256 : Shape := ⟨2, ![8192, 256]⟩
abbrev S16384x256 : Shape := ⟨2, ![16384, 256]⟩
abbrev S_ : Shape := ⟨0, ![]⟩
abbrev S8192 : Shape := ⟨1, ![8192]⟩
abbrev S16384 : Shape := ⟨1, ![16384]⟩

abbrev nBuf : Space → Nat
  | .hbm => 28
  | .vmem => 0
  | .smem => 0
  | _ => 0

abbrev bufTy : (tb : Table) → Fin (tcTables nBuf tb) → BufTy
  | .hbm, ⟨0, _⟩ => ⟨S8192x16384, .f32⟩
  | .hbm, ⟨1, _⟩ => ⟨S8192x256, .f32⟩
  | .hbm, ⟨2, _⟩ => ⟨S16384x256, .f32⟩
  | .hbm, ⟨3, _⟩ => ⟨S8192x16384, .f32⟩
  | .hbm, ⟨4, _⟩ => ⟨S8192x16384, .f32⟩
  | .hbm, ⟨5, _⟩ => ⟨S8192x16384, .f32⟩
  | .hbm, ⟨6, _⟩ => ⟨S8192x16384, .f32⟩
  | .hbm, ⟨7, _⟩ => ⟨S8192x16384, .f32⟩
  | .hbm, ⟨8, _⟩ => ⟨S_, .f32⟩
  | .hbm, ⟨9, _⟩ => ⟨S_, .f32⟩
  | .hbm, ⟨10, _⟩ => ⟨S8192x256, .f32⟩
  | .hbm, ⟨11, _⟩ => ⟨S_, .f32⟩
  | .hbm, ⟨12, _⟩ => ⟨S8192, .f32⟩
  | .hbm, ⟨13, _⟩ => ⟨S8192, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S16384x256, .f32⟩
  | .hbm, ⟨19, _⟩ => ⟨S_, .f32⟩
  | .hbm, ⟨20, _⟩ => ⟨S16384, .f32⟩
  | .hbm, ⟨21, _⟩ => ⟨S16384, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | _, _ => ⟨S8192x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_call0_v0 : Ref sig .tc := ⟨.hbm, 10, rfl⟩
abbrev main_call0_cst : Ref sig .tc := ⟨.hbm, 11, rfl⟩
abbrev main_call0_v1 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_call1_v0 : Ref sig .tc := ⟨.hbm, 18, rfl⟩
abbrev main_call1_cst : Ref sig .tc := ⟨.hbm, 19, rfl⟩
abbrev main_call1_v1 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_cst_3 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩

abbrev nD : Nat := 1
abbrev τ : Topo := Topo.v7x

variable {F : FTy → Type} [FloatOps F]

class Facts₀ : Prop where
  reducesTo_S8192x16384_S_d0_1 : S8192x16384.ReducesTo [0, 1] S_
  h_S_ : 0 < S_.numel
  reducesTo_S8192x256_S8192_d1 : S8192x256.ReducesTo [1] S8192
  reducesTo_S8192_S_d0 : S8192.ReducesTo [0] S_
  reducesTo_S16384x256_S16384_d1 : S16384x256.ReducesTo [1] S16384
  reducesTo_S16384_S_d0 : S16384.ReducesTo [0] S_
  dot_S8192x256_S16384x256_S8192x16384_1_1_0_0_n_n_wf : DotDims.WF S8192x256 S16384x256 S8192x16384 [1] [1] [0] [0] [] []

variable [Facts₀]

def dot_S8192x256_S16384x256_S8192x16384_1_1_0_0_n_n : DotDims S8192x256 S16384x256 S8192x16384 where
  lhsContracting := [1]
  rhsContracting := [1]
  lhsNonContracting := [0]
  rhsNonContracting := [0]
  lhsBatch := []
  rhsBatch := []
  wf := dot_S8192x256_S16384x256_S8192x16384_1_1_0_0_n_n_wf

class Facts : Prop extends Facts₀ where

variable [Facts]
-- ==== Proof.Pieces.lean ====
/-
  What each control case of the kernel body leaves behind, read back as a value of the body's loads, at any
  float instance.  The accumulator is stored whole by every case, so what it holds afterwards is the payload of
  the last covering store: at a reset point the update applied to the zero vector just stored (the body reads the
  accumulator back after the reset), elsewhere the update applied to what the point before left.  At a column
  tile's last point the output block is stored with the accumulator's new contents.
-/
import proofs.«153075_j3925600109323_1_alg».proof.Proof.Gen.KernelIdeal.Frame
import Idealize.ShloMosaic.Lib.Pipeline.Value
import Idealize.ShloMosaic.Lib.Tactic

set_option maxRecDepth 16384

noncomputable section

namespace Cert.KernelIdeal.PmfValue

open Idealize.ShloMosaic Idealize.ShloMosaic.TcCoe Idealize.SL.Sem Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- A reset point (the first row tile of a column tile): the accumulator ends at the update of the zero vector. -/
theorem sout_A (c : Dev nD) (i : grid0.Coords) (arg2 : Memref sig .tc .vmem S1024x2048 .f32) (harg2 : arg2.IsWhole) (arg3 : Memref sig .tc .vmem S1024x2048 .f32) (harg3 : arg3.IsWhole) (arg4 : Memref sig .tc .vmem S1024x256 .bf16) (harg4 : arg4.IsWhole) (arg5 : Memref sig .tc .vmem S2048x256 .bf16) (harg5 : arg5.IsWhole) (arg6 : Memref sig .tc .vmem S1x1x128 .f32) (harg6 : arg6.IsWhole) (arg7 : Memref sig .tc .vmem S1x1x128 .f32) (harg7 : arg7.IsWhole) (hc0 : cond0_0 i) (hc1 : ¬cond0_1 i)
    (x0 : Vec F S1024x2048 .f32) (x1 : Vec F S1024x2048 .f32) (x2 : Vec F S1024x256 .bf16) (x3 : Vec F S2048x256 .bf16) :
    sout0_A_0 c i arg2 harg2 arg3 harg3 arg4 harg4 arg5 harg5 arg6 harg6 arg7 harg7 hc0 hc1 x0 x1 x2 x3 = k0_pay2 x2 x3 x0 x1 (k0_pay1 (F := F)) := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero (S := S1x1x128) hz3]
  simp only [View.readAt_eq_ld, harg2.read_unread, harg3.read_unread, harg4.read_unread, harg5.read_unread, harg7.read_unread, View.ld_unit_zero (S := S1024x2048) hz2, View.ld_unit_zero (S := S1024x256) hz2, View.ld_unit_zero (S := S2048x256) hz2, View.ld_unit_zero (S := S1x1x128) hz3, View.readCov_unit_zero (S := S1x1x128) _ hz3]

/-- A middle point: the accumulator ends at the update of what the point before left. -/
theorem sout_B (c : Dev nD) (i : grid0.Coords) (arg2 : Memref sig .tc .vmem S1024x2048 .f32) (harg2 : arg2.IsWhole) (arg3 : Memref sig .tc .vmem S1024x2048 .f32) (harg3 : arg3.IsWhole) (arg4 : Memref sig .tc .vmem S1024x256 .bf16) (harg4 : arg4.IsWhole) (arg5 : Memref sig .tc .vmem S2048x256 .bf16) (harg5 : arg5.IsWhole) (arg6 : Memref sig .tc .vmem S1x1x128 .f32) (harg6 : arg6.IsWhole) (arg7 : Memref sig .tc .vmem S1x1x128 .f32) (harg7 : arg7.IsWhole) (hc0 : ¬cond0_0 i) (hc1 : ¬cond0_1 i)
    (x0 : Vec F S1024x2048 .f32) (x1 : Vec F S1024x2048 .f32) (x2 : Vec F S1024x256 .bf16) (x3 : Vec F S2048x256 .bf16) (xs0 : Vec F S1x1x128 .f32) :
    sout0_B_0 c i arg2 harg2 arg3 harg3 arg4 harg4 arg5 harg5 arg6 harg6 arg7 harg7 hc0 hc1 x0 x1 x2 x3 xs0 = k0_pay2 x2 x3 x0 x1 xs0 := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  sl_unfold_words
  rw [View.canon_unit_zero hz3]
  simp only [View.readAt_eq_ld, harg2.read_unread, harg3.read_unread, harg4.read_unread, harg5.read_unread, harg7.read_unread, View.ld_unit_zero (S := S1024x2048) hz2, View.ld_unit_zero (S := S1024x256) hz2, View.ld_unit_zero (S := S2048x256) hz2, View.ld_unit_zero (S := S1x1x128) hz3, View.readCov_unit_zero (S := S1x1x128) _ hz3]

/-- A column tile's last point: the accumulator likewise, -/
theorem sout_C (c : Dev nD) (i : grid0.Coords) (arg2 : Memref sig .tc .vmem S1024x2048 .f32) (harg2 : arg2.IsWhole) (arg3 : Memref sig .tc .vmem S1024x2048 .f32) (harg3 : arg3.IsWhole) (arg4 : Memref sig .tc .vmem S1024x256 .bf16) (harg4 : arg4.IsWhole) (arg5 : Memref sig .tc .vmem S2048x256 .bf16) (harg5 : arg5.IsWhole) (arg6 : Memref sig .tc .vmem S1x1x128 .f32) (harg6 : arg6.IsWhole) (arg7 : Memref sig .tc .vmem S1x1x128 .f32) (harg7 : arg7.IsWhole) (hc0 : ¬cond0_0 i) (hc1 : cond0_1 i)
    (x0 : Vec F S1024x2048 .f32) (x1 : Vec F S1024x2048 .f32) (x2 : Vec F S1024x256 .bf16) (x3 : Vec F S2048x256 .bf16) (xs0 : Vec F S1x1x128 .f32) :
    sout0_C_0 c i arg2 harg2 arg3 harg3 arg4 harg4 arg5 harg5 arg6 harg6 arg7 harg7 hc0 hc1 x0 x1 x2 x3 xs0 = k0_pay2 x2 x3 x0 x1 xs0 := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_words
  rw [View.canon_unit_zero hz3]
  simp only [View.readAt_eq_ld, harg2.read_unread, harg3.read_unread, harg4.read_unread, harg5.read_unread, harg7.read_unread, View.ld_unit_zero (S := S1024x2048) hz2, View.ld_unit_zero (S := S1024x256) hz2, View.ld_unit_zero (S := S2048x256) hz2, View.ld_unit_zero (S := S1x1x128) hz3, View.readCov_unit_zero (S := S1x1x128) _ hz3]

/-- and the output block is the accumulator's new contents. -/
theorem out_C (c : Dev nD) (i : grid0.Coords) (arg2 : Memref sig .tc .vmem S1024x2048 .f32) (harg2 : arg2.IsWhole) (arg3 : Memref sig .tc .vmem S1024x2048 .f32) (harg3 : arg3.IsWhole) (arg4 : Memref sig .tc .vmem S1024x256 .bf16) (harg4 : arg4.IsWhole) (arg5 : Memref sig .tc .vmem S2048x256 .bf16) (harg5 : arg5.IsWhole) (arg6 : Memref sig .tc .vmem S1x1x128 .f32) (harg6 : arg6.IsWhole) (arg7 : Memref sig .tc .vmem S1x1x128 .f32) (harg7 : arg7.IsWhole) (hc0 : ¬cond0_0 i) (hc1 : cond0_1 i)
    (x0 : Vec F S1024x2048 .f32) (x1 : Vec F S1024x2048 .f32) (x2 : Vec F S1024x256 .bf16) (x3 : Vec F S2048x256 .bf16) (xs0 : Vec F S1x1x128 .f32) :
    out0_C_4 c i arg2 harg2 arg3 harg3 arg4 harg4 arg5 harg5 arg6 harg6 arg7 harg7 hc0 hc1 x0 x1 x2 x3 xs0 = k0_pay2 x2 x3 x0 x1 xs0 := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_words
  rw [View.canon_unit_zero hz3]
  simp only [View.readAt_eq_ld, harg2.read_unread, harg3.read_unread, harg4.read_unread, harg5.read_unread, harg7.read_unread, View.ld_unit_zero (S := S1024x2048) hz2, View.ld_unit_zero (S := S1024x256) hz2, View.ld_unit_zero (S := S2048x256) hz2, View.ld_unit_zero (S := S1x1x128) hz3, View.readCov_unit_zero (S := S1x1x128) _ hz3]

end Cert.KernelIdeal.PmfValue

end
-- ==== Proof.Spec.lean ====
/-
  The mathematics both programs compute, stated once over literal shapes and the extended reals.

  The loss's data term is the total, over every (row n, column k) of the rating matrix, of the masked squared
  residual  ((R n k − ⟨U n, I k⟩) · (R n k − ⟨U n, I k⟩)) · W n k  (`entryErr`, `totalErr`).
  The kernel visits the matrix in 8 × 8 tiles of 1024 rows by 2048 columns; a tile's contribution is `blockErr`
  of the tile's four blocks (`tileR`, `tileU`, `tileI`).  Within a column tile the eight row tiles' contributions are
  accumulated in order from a reset (`runSum`), and only lane 0 of the 128-lane accumulator carries the sum
  (`lanes`, `outArr`).
-/
import Idealize.ShloMosaic.PureOps.Ideal
import Idealize.ShloMosaic.Lib.ValueIdx

noncomputable section

namespace Cert.Pmf

open Idealize.ShloMosaic Idealize.ShloMosaic.ValueIdx

/-- The rating and mask matrices' shape, -/
abbrev SR : Shape := ⟨2, ![8192, 16384]⟩
/-- the row factors', -/
abbrev SU : Shape := ⟨2, ![8192, 256]⟩
/-- the column factors', -/
abbrev SI : Shape := ⟨2, ![16384, 256]⟩
/-- one tile of the rating or mask matrix, -/
abbrev BR : Shape := ⟨2, ![1024, 2048]⟩
/-- the row factors of a tile's rows, -/
abbrev BU : Shape := ⟨2, ![1024, 256]⟩
/-- the column factors of a tile's columns, -/
abbrev BI : Shape := ⟨2, ![2048, 256]⟩
/-- the 128-lane accumulator, -/
abbrev SL : Shape := ⟨3, ![1, 1, 128]⟩
/-- and the kernel's result array: one accumulator per column tile. -/
abbrev SO : Shape := ⟨3, ![8, 1, 128]⟩

/-- The masked squared residual of one entry: rating `r`, weight `w`, the two factor rows `u`, `v`. -/
def entryErr (r w : EReal) (u v : Fin 256 → EReal) : EReal :=
  ((r - ∑ d : Fin 256, u d * v d) * (r - ∑ d : Fin 256, u d * v d)) * w

/-- The sum of the residuals over one tile, from the tile's rating block `x0`, mask block `x1`, row-factor block `x2`
    and column-factor block `x3`. -/
def blockErr (x0 x1 : BR.Idx → EReal) (x2 : BU.Idx → EReal) (x3 : BI.Idx → EReal) : EReal :=
  ∑ r : Fin 1024, ∑ c : Fin 2048,
    entryErr (x0 (ix2 r c)) (x1 (ix2 r c)) (fun d => x2 (ix2 r d)) (fun d => x3 (ix2 c d))

/-- The sum of the residuals over the whole matrix. -/
def totalErr (R W : SR.Idx → EReal) (U : SU.Idx → EReal) (I : SI.Idx → EReal) : EReal :=
  ∑ n : Fin 8192, ∑ k : Fin 16384,
    entryErr (R (ix2 n k)) (W (ix2 n k)) (fun d => U (ix2 n d)) (fun d => I (ix2 k d))

/-- Tile (row tile `i`, column tile `j`) of a full matrix: entry (r, c) of the tile is entry (1024 i + r, 2048 j + c). -/
def tileR (A : SR.Idx → EReal) (i j : Fin 8) : BR.Idx → EReal := fun y =>
  A (ix2 ⟨1024 * i.val + (y 0).val, by have := idx2_lt0 y; have := i.isLt; omega⟩
         ⟨2048 * j.val + (y 1).val, by have := idx2_lt1 y; have := j.isLt; omega⟩)

/-- The row factors of row tile `i`: row r of the block is row 1024 i + r. -/
def tileU (U : SU.Idx → EReal) (i : Fin 8) : BU.Idx → EReal := fun y =>
  U (ix2 ⟨1024 * i.val + (y 0).val, by have := idx2_lt0 y; have := i.isLt; omega⟩ ⟨(y 1).val, idx2_lt1 y⟩)

/-- The column factors of column tile `j`: row c of the block is row 2048 j + c. -/
def tileI (I : SI.Idx → EReal) (j : Fin 8) : BI.Idx → EReal := fun y =>
  I (ix2 ⟨2048 * j.val + (y 0).val, by have := idx2_lt0 y; have := j.isLt; omega⟩ ⟨(y 1).val, idx2_lt1 y⟩)

/-- Tile (i, j)'s contribution. -/
def tileErr (R W : SR.Idx → EReal) (U : SU.Idx → EReal) (I : SI.Idx → EReal) (i j : Fin 8) : EReal :=
  blockErr (tileR R i j) (tileR W i j) (tileU U i) (tileI I j)

/-- The accumulation order of a grid whose inner axis has eight points: the running sum of the per-point
    contributions `P`, started afresh at every point ≡ 0 (mod 8). -/
def runSum (P : ℕ → EReal) : ℕ → EReal
  | 0 => P 0
  | n + 1 => if (n + 1) % 8 = 0 then P (n + 1) else runSum P n + P (n + 1)

/-- A 128-lane accumulator that carries `s` on lane 0 and zero elsewhere. -/
def lanes (s : EReal) : SL.Idx → EReal := fun y => if (y 2).val = 0 then s else 0

/-- The kernel's result array: column tile `j`'s accumulator after its last point, 8 j + 7. -/
def outArr (P : ℕ → EReal) : SO.Idx → EReal := fun y => if (y 2).val = 0 then runSum P (8 * (y 0).val + 7) else 0

end Cert.Pmf

end
-- ==== Proof.Payload.lean ====
/-
  The kernel body's arithmetic at the ideal instance, read lane by lane.
-/
import proofs.«153075_j3925600109323_1_alg».proof.Proof.Spec
import proofs.«153075_j3925600109323_1_alg».proof.Proof.Gen.KernelIdeal.Skeleton
import Idealize.ShloMosaic.PureOps.Ideal.Laws
import Idealize.ShloMosaic.Lib.Pipeline.Value
import Idealize.ShloMosaic.Lib.ValueLayout

noncomputable section

namespace Cert.KernelIdeal.PmfValue

open Idealize.ShloMosaic Idealize.ShloMosaic.ValueIdx Cert.KernelIdeal Cert.KernelIdeal.Gen

/-- The reset stores the zero vector. -/
theorem pay1_apply (y : S1x1x128.Idx) : (k0_pay1 (F := Ideal)) y = 0 := by
  unfold k0_pay1
  rw [shapeCast_self]
  show Ideal.ofBits .f32 0x00000000#32 = 0
  exact Ideal.ofBits_zero_f32

namespace Payload

/-! ## The one-hot lane vector -/

/-- The comparison of a lane number below 128 with zero, as a one-bit word. -/
theorem cmpi_lane (n : Nat) (hn : n < 128) :
    IntOp.cmpi .eq (BitVec.ofNat 32 n) 0#32 = if n = 0 then 1#1 else 0#1 := by
  by_cases h : n = 0
  · subst h; rfl
  · rw [if_neg h]
    have hne : (BitVec.ofNat 32 n == 0#32) = false := by
      apply beq_false_of_ne
      intro hh
      have h2 := congrArg BitVec.toNat hh
      rw [BitVec.toNat_ofNat, Nat.mod_eq_of_lt (by omega)] at h2
      exact h h2
    unfold IntOp.cmpi
    simp only [hne]
    rfl

/-- The lane vector is one on lane 0 and zero on every other lane. -/
theorem lane_apply (a b : Fin 1) (l : Fin 128) :
    (sitofp (F := Ideal) .f32 (extui 32 (cmpi .eq (iota .tc S1x1x128 32 [2] iota_S1x1x128_d2_w32) (broadcast S1x1x128 0#32)) natLt_1_32) : FVec Ideal S1x1x128 .f32) (ix3 a b l)
      = if l.val = 0 then 1 else 0 := by
  rw [sitofp_apply, extui_apply]
  show FloatOps.sitofp (F := Ideal) .f32 ((IntOp.cmpi .eq (iota .tc S1x1x128 32 [2] iota_S1x1x128_d2_w32 (ix3 a b l)) 0#32).setWidth 32) = _
  rw [iota_single_apply]
  show (((((IntOp.cmpi .eq (BitVec.ofNat 32 l.val) 0#32).setWidth 32).toInt : ℝ) : EReal)) = _
  rw [cmpi_lane l.val l.isLt]
  by_cases h : l.val = 0
  · rw [if_pos h, if_pos h]
    have e1 : ((1#1 : BitVec 1).setWidth 32).toInt = 1 := by decide
    rw [e1]; simp
  · rw [if_neg h, if_neg h]
    have e0 : ((0#1 : BitVec 1).setWidth 32).toInt = 0 := by decide
    rw [e0]; simp

/-! ## The product of the row-factor block with the transposed column-factor block -/

/-- The left operand's index at output index `i` and contraction index `q`: axis 0 is the output's row, -/
theorem lhs_k0_0 (i : S1024x2048.Idx) (q : dot_S1024x256_S256x2048_S1024x2048_1_0_0_1_n_n.contr.Idx) :
    (dot_S1024x256_S256x2048_S1024x2048_1_0_0_1_n_n.lhsIdx i q 0).val = (i 0).val := by
  unfold DotDims.lhsIdx
  rw [dif_neg (show ¬(0 : Fin S1024x256.rank) ∈ dot_S1024x256_S256x2048_S1024x2048_1_0_0_1_n_n.lhsBatch by decide), dif_pos (show (0 : Fin S1024x256.rank) ∈ dot_S1024x256_S256x2048_S1024x2048_1_0_0_1_n_n.lhsNonContracting by decide)]
  rfl
/-- and axis 1 is the contraction coordinate. -/
theorem lhs_k0_1 (i : S1024x2048.Idx) (q : dot_S1024x256_S256x2048_S1024x2048_1_0_0_1_n_n.contr.Idx) :
    (dot_S1024x256_S256x2048_S1024x2048_1_0_0_1_n_n.lhsIdx i q 1).val = (q ⟨0, by decide⟩).val :=
  dot_S1024x256_S256x2048_S1024x2048_1_0_0_1_n_n.lhsIdx_val_of_single rfl i q
/-- The right operand's index: axis 0 is the contraction coordinate, -/
theorem rhs_k0_0 (i : S1024x2048.Idx) (q : dot_S1024x256_S256x2048_S1024x2048_1_0_0_1_n_n.contr.Idx) :
    (dot_S1024x256_S256x2048_S1024x2048_1_0_0_1_n_n.rhsIdx i q 0).val = (q ⟨0, by decide⟩).val :=
  dot_S1024x256_S256x2048_S1024x2048_1_0_0_1_n_n.rhsIdx_val_of_single rfl i q
/-- and axis 1 is the output's column. -/
theorem rhs_k0_1 (i : S1024x2048.Idx) (q : dot_S1024x256_S256x2048_S1024x2048_1_0_0_1_n_n.contr.Idx) :
    (dot_S1024x256_S256x2048_S1024x2048_1_0_0_1_n_n.rhsIdx i q 1).val = (i 1).val := by
  unfold DotDims.rhsIdx
  rw [dif_neg (show ¬(1 : Fin S256x2048.rank) ∈ dot_S1024x256_S256x2048_S1024x2048_1_0_0_1_n_n.rhsBatch by decide), dif_pos (show (1 : Fin S256x2048.rank) ∈ dot_S1024x256_S256x2048_S1024x2048_1_0_0_1_n_n.rhsNonContracting by decide)]
  rfl

/-- Entry (r, c) of the product is the inner product of row r of the row factors with row c of the column factors:
    the contraction runs over the 256 factor coordinates, and the transposed block read at (d, c) is the block at (c, d). -/
theorem prod_apply (v3 : FVec Ideal S1024x256 .bf16) (v5 : FVec Ideal S2048x256 .bf16) (r : Fin 1024) (c : Fin 2048) :
    (matmul dot_S1024x256_S256x2048_S1024x2048_1_0_0_1_n_n none
        (shapeCast S1024x256 v3 shapeCasts_S1024x256_S1024x256)
        (transpose S256x2048 [1, 0] (shapeCast S2048x256 v5 shapeCasts_S2048x256_S2048x256) transposes_S2048x256_p1_0_S256x2048)
        (constant S1024x2048 .f32 0x00000000#32) : FVec Ideal S1024x2048 .f32) (ix2 r c)
      = ∑ d : Fin 256, v3 (ix2 r d) * v5 (ix2 c d) := by
  rw [shapeCast_self, shapeCast_self]
  refine (Ideal.matmul_constant_zero_apply _ none _ _ _).trans ?_
  rw [← Equiv.sum_comp (contrEquiv1 dot_S1024x256_S256x2048_S1024x2048_1_0_0_1_n_n 256 rfl rfl).symm]
  refine Finset.sum_congr rfl fun k _ => ?_
  have hk := contrEquiv1_symm_val dot_S1024x256_S256x2048_S1024x2048_1_0_0_1_n_n 256 rfl rfl k
  have el : dot_S1024x256_S256x2048_S1024x2048_1_0_0_1_n_n.lhsIdx (ix2 r c) ((contrEquiv1 dot_S1024x256_S256x2048_S1024x2048_1_0_0_1_n_n 256 rfl rfl).symm k) = ix2 r k := funext fun a => Fin.ext (by
    match a with
    | ⟨0, _⟩ => exact lhs_k0_0 _ _
    | ⟨1, _⟩ => exact (lhs_k0_1 _ _).trans hk)
  have er : dot_S1024x256_S256x2048_S1024x2048_1_0_0_1_n_n.rhsIdx (ix2 r c) ((contrEquiv1 dot_S1024x256_S256x2048_S1024x2048_1_0_0_1_n_n 256 rfl rfl).symm k) = ix2 k c := funext fun a => Fin.ext (by
    match a with
    | ⟨0, _⟩ => exact (rhs_k0_0 _ _).trans hk
    | ⟨1, _⟩ => exact rhs_k0_1 _ _)
  rw [el, er, transpose_ix2_apply]

/-! ## The block total -/

/-- A matrix's index set is that of the matrix with a leading unit axis. -/
def addUnitEquiv {a b : Nat} : (⟨2, ![a, b]⟩ : Shape).Idx ≃ (⟨3, ![1, a, b]⟩ : Shape).Idx where
  toFun j := ix3 (0 : Fin 1) (j 0) (j 1)
  invFun i := ix2 (i 1) (i 2)
  left_inv j := (eq_ix2 j).symm
  right_inv i := by
    funext d
    match d with
    | ⟨0, _⟩ =>
      have h : (i 0).val < 1 := (i 0).isLt
      exact Fin.ext (by show 0 = (i 0).val; omega)
    | ⟨1, _⟩ => rfl
    | ⟨2, _⟩ => rfl

/-- The sum of a 1024 × 2048 block over both axes, taken through the cast to 1 × 1024 × 2048, is the double sum over
    rows and columns. -/
theorem total_apply (w : FVec Ideal S1024x2048 .f32) (j : S1.Idx) :
    (multiReduction .add [1, 2] S1 (shapeCast S1x1024x2048 w shapeCasts_S1024x2048_S1x1024x2048) 0x00000000#32
        reduces_S1x1024x2048_S1 (.inl rfl) rfl : FVec Ideal S1 .f32) j
      = ∑ r : Fin 1024, ∑ c : Fin 2048, w (ix2 r c) := by
  refine (Ideal.multiReduction_add_total _ _ reduces_S1x1024x2048_S1 (fun b => ?_) (.inl rfl) rfl j).trans ?_
  · match b with
    | ⟨0, _⟩ => rfl
  · rw [← Equiv.sum_comp (addUnitEquiv (a := 1024) (b := 2048)), sum_idx2]
    refine Finset.sum_congr rfl fun r _ => Finset.sum_congr rfl fun c _ => ?_
    exact shapeCast_ab_1ab_apply w _ 0 r c

/-! ## The tile's contribution -/

/-- The scalar the kernel extracts — the sum over the tile of the masked squared residuals — is the tile's contribution. -/
theorem tile_total (v3 : FVec Ideal S1024x256 .bf16) (v5 : FVec Ideal S2048x256 .bf16) (v9 v12 : FVec Ideal S1024x2048 .f32) :
    extractAt ![0, 0, 0]
        (shapeCast S1x1x1
          (multiReduction .add [1, 2] S1
            (shapeCast S1x1024x2048
              (mulf
                (mulf
                  (subf v9 (matmul dot_S1024x256_S256x2048_S1024x2048_1_0_0_1_n_n none
                    (shapeCast S1024x256 v3 shapeCasts_S1024x256_S1024x256)
                    (transpose S256x2048 [1, 0] (shapeCast S2048x256 v5 shapeCasts_S2048x256_S2048x256) transposes_S2048x256_p1_0_S256x2048)
                    (constant S1024x2048 .f32 0x00000000#32)))
                  (subf v9 (matmul dot_S1024x256_S256x2048_S1024x2048_1_0_0_1_n_n none
                    (shapeCast S1024x256 v3 shapeCasts_S1024x256_S1024x256)
                    (transpose S256x2048 [1, 0] (shapeCast S2048x256 v5 shapeCasts_S2048x256_S2048x256) transposes_S2048x256_p1_0_S256x2048)
                    (constant S1024x2048 .f32 0x00000000#32))))
                v12)
              shapeCasts_S1024x2048_S1x1024x2048)
            0x00000000#32 reduces_S1x1024x2048_S1 (.inl rfl) rfl : FVec Ideal S1 .f32)
          shapeCasts_S1_S1x1x1)
        inpos_S1x1x1_p0_0_0
      = Cert.Pmf.blockErr v9 v12 v3 v5 := by
  refine (total_apply _ _).trans ?_
  unfold Cert.Pmf.blockErr
  refine Finset.sum_congr rfl fun r _ => Finset.sum_congr rfl fun c _ => ?_
  refine (mulf_apply _ _ _).trans ?_
  refine congrArg (· * v12 (ix2 r c)) ?_
  refine (mulf_apply _ _ _).trans ?_
  rw [subf_apply, prod_apply]

end Payload

open Payload

/-- One point's update of the accumulator: every lane keeps what it held, and lane 0 gains the tile's contribution
    (the block total times the one-hot lane vector: the total on lane 0, `total · 0 = 0` elsewhere). -/
theorem pay2_apply (v3 : Vec Ideal S1024x256 .bf16) (v5 : Vec Ideal S2048x256 .bf16) (v9 v12 : Vec Ideal S1024x2048 .f32)
    (v23 : Vec Ideal S1x1x128 .f32) (y : S1x1x128.Idx) :
    k0_pay2 (F := Ideal) v3 v5 v9 v12 v23 y = v23 y + Cert.Pmf.lanes (Cert.Pmf.blockErr v9 v12 v3 v5) y := by
  obtain ⟨a, b, l, rfl⟩ : ∃ (a b : Fin 1) (l : Fin 128), y = ix3 a b l := ⟨y 0, y 1, y 2, eq_ix3 y⟩
  unfold k0_pay2
  refine (congrFun (shapeCast_self _ _) _).trans ?_
  refine (addf_apply _ _ _).trans ?_
  refine congrArg (v23 (ix3 a b l) + ·) ?_
  refine (mulf_apply _ _ _).trans ?_
  rw [lane_apply, broadcast_apply, tile_total]
  show _ = if l.val = 0 then _ else 0
  by_cases h : l.val = 0
  · rw [if_pos h, if_pos h, mul_one]
  · rw [if_neg h, if_neg h, mul_zero]

end Cert.KernelIdeal.PmfValue

end
-- ==== Proof.Blocks.lean ====
/-
  The four input blocks the kernel body loads at a grid point, as tiles of the argument arrays.  The grid's 64
  points run column tile by column tile: point t is row tile t % 8 of column tile t / 8.  The rating and mask
  windows read tile (t % 8, t / 8); the row-factor window reads rows 1024 (t % 8) …, the column-factor window rows
  2048 (t / 8) …; the two factor arrays reach the kernel through a change of float format, which at the ideal
  instance is the identity.
-/
import proofs.«153075_j3925600109323_1_alg».proof.Proof.Spec
import proofs.«153075_j3925600109323_1_alg».proof.Proof.Gen.KernelIdeal.Frame
import Idealize.ShloMosaic.Lib.Pipeline.Value
import Idealize.ShloMosaic.Lib.StableHlo.Run
import Idealize.ShloMosaic.Lib.ValueIdx

noncomputable section

namespace Cert.KernelIdeal.PmfValue

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- The rating block at point `t`, -/
abbrev rblk (c : Dev nD) (t : Fin cfg0.N) : Vec Ideal S1024x2048 .f32 := iblk m c 0 t
/-- the mask block, -/
abbrev wblk (c : Dev nD) (t : Fin cfg0.N) : Vec Ideal S1024x2048 .f32 := iblk m c 1 t
/-- the row-factor block, -/
abbrev ublk (c : Dev nD) (t : Fin cfg0.N) : Vec Ideal S1024x256 .bf16 := iblk m c 2 t
/-- and the column-factor block. -/
abbrev vblk (c : Dev nD) (t : Fin cfg0.N) : Vec Ideal S2048x256 .bf16 := iblk m c 3 t

/-- Point `t`'s row tile -/
def rowTile (t : Fin cfg0.N) : Fin 8 := ⟨t.val % 8, Nat.mod_lt _ (by decide)⟩
/-- and column tile. -/
def colTile (t : Fin cfg0.N) : Fin 8 := ⟨t.val / 8, by have := t.isLt; have : cfg0.N = 64 := N_0; omega⟩

/-- The tile's contribution at point `n` (zero past the grid). -/
def contrib (c : Dev nD) (n : ℕ) : EReal :=
  if h : n < cfg0.N then Cert.Pmf.blockErr (rblk m c ⟨n, h⟩) (wblk m c ⟨n, h⟩) (ublk m c ⟨n, h⟩) (vblk m c ⟨n, h⟩) else 0

/-- Window 0 reads tile (t % 8, t / 8): the index map, decided over the grid. -/
private theorem idx0 : ∀ t : Fin cfg0.N, win0_0.index t 0 = t.val % 8 ∧ win0_0.index t 1 = t.val / 8 :=
  (by decide +kernel : ∀ t : Fin grid0.N, win0_0.index t 0 = t.val % 8 ∧ win0_0.index t 1 = t.val / 8)
/-- Window 1 likewise. -/
private theorem idx1 : ∀ t : Fin cfg0.N, win0_1.index t 0 = t.val % 8 ∧ win0_1.index t 1 = t.val / 8 :=
  (by decide +kernel : ∀ t : Fin grid0.N, win0_1.index t 0 = t.val % 8 ∧ win0_1.index t 1 = t.val / 8)
/-- Window 2 reads row block t % 8, all columns. -/
private theorem idx2 : ∀ t : Fin cfg0.N, win0_2.index t 0 = t.val % 8 ∧ win0_2.index t 1 = 0 :=
  (by decide +kernel : ∀ t : Fin grid0.N, win0_2.index t 0 = t.val % 8 ∧ win0_2.index t 1 = 0)
/-- Window 3 reads row block t / 8, all columns. -/
private theorem idx3 : ∀ t : Fin cfg0.N, win0_3.index t 0 = t.val / 8 ∧ win0_3.index t 1 = 0 :=
  (by decide +kernel : ∀ t : Fin grid0.N, win0_3.index t 0 = t.val / 8 ∧ win0_3.index t 1 = 0)

theorem rblk_eq (c : Dev nD) (t : Fin cfg0.N) :
    rblk m c t = Cert.Pmf.tileR (m ((c : Thread nD τ).loc main_arg0)) (rowTile t) (colTile t) := by
  funext j
  unfold rblk iblk Cert.Pmf.tileR
  rw [View.read_apply]
  show V m c main_arg0 _ = _
  rw [V_main_arg0]
  congr 1
  funext a
  apply Fin.ext
  match a with
  | ⟨0, _⟩ =>
    show win0_0.index t 0 * 1024 + 1 * (j 0).val = 1024 * (t.val % 8) + (j 0).val
    rw [(idx0 t).1]; omega
  | ⟨1, _⟩ =>
    show win0_0.index t 1 * 2048 + 1 * (j 1).val = 2048 * (t.val / 8) + (j 1).val
    rw [(idx0 t).2]; omega

theorem wblk_eq (c : Dev nD) (t : Fin cfg0.N) :
    wblk m c t = Cert.Pmf.tileR (m ((c : Thread nD τ).loc main_arg3)) (rowTile t) (colTile t) := by
  funext j
  unfold wblk iblk Cert.Pmf.tileR
  rw [View.read_apply]
  show V m c main_arg3 _ = _
  rw [V_main_arg3]
  congr 1
  funext a
  apply Fin.ext
  match a with
  | ⟨0, _⟩ =>
    show win0_1.index t 0 * 1024 + 1 * (j 0).val = 1024 * (t.val % 8) + (j 0).val
    rw [(idx1 t).1]; omega
  | ⟨1, _⟩ =>
    show win0_1.index t 1 * 2048 + 1 * (j 1).val = 2048 * (t.val / 8) + (j 1).val
    rw [(idx1 t).2]; omega

/-- The row factors as the region finds them: the launch contents through the change of format. -/
private theorem V_main_v0 (c : Dev nD) :
    @Eq (FVec Ideal S8192x256 .bf16) (V m c main_v0)
      (truncf .bf16 (m ((c : Thread nD τ).loc main_arg1) : FVec Ideal S8192x256 .f32) bitsLt_bf16_f32) := by
  show StableHlo.after hostOps0 (fun b => m (c, b)) (Proc.devRef .tc main_v0) = _
  after_results

/-- The column factors likewise. -/
private theorem V_main_v1 (c : Dev nD) :
    @Eq (FVec Ideal S16384x256 .bf16) (V m c main_v1)
      (truncf .bf16 (m ((c : Thread nD τ).loc main_arg2) : FVec Ideal S16384x256 .f32) bitsLt_bf16_f32) := by
  show StableHlo.after hostOps0 (fun b => m (c, b)) (Proc.devRef .tc main_v1) = _
  after_results

theorem ublk_eq (c : Dev nD) (t : Fin cfg0.N) :
    ublk m c t = Cert.Pmf.tileU (m ((c : Thread nD τ).loc main_arg1)) (rowTile t) := by
  funext j
  unfold ublk iblk Cert.Pmf.tileU
  rw [View.read_apply]
  show V m c main_v0 _ = _
  refine (congrFun (V_main_v0 m c) _).trans ?_
  rw [truncf_apply]
  congr 1
  funext a
  apply Fin.ext
  match a with
  | ⟨0, _⟩ =>
    show win0_2.index t 0 * 1024 + 1 * (j 0).val = 1024 * (t.val % 8) + (j 0).val
    rw [(idx2 t).1]; omega
  | ⟨1, _⟩ =>
    show win0_2.index t 1 * 256 + 1 * (j 1).val = (j 1).val
    rw [(idx2 t).2]; omega

theorem vblk_eq (c : Dev nD) (t : Fin cfg0.N) :
    vblk m c t = Cert.Pmf.tileI (m ((c : Thread nD τ).loc main_arg2)) (colTile t) := by
  funext j
  unfold vblk iblk Cert.Pmf.tileI
  rw [View.read_apply]
  show V m c main_v1 _ = _
  refine (congrFun (V_main_v1 m c) _).trans ?_
  rw [truncf_apply]
  congr 1
  funext a
  apply Fin.ext
  match a with
  | ⟨0, _⟩ =>
    show win0_3.index t 0 * 2048 + 1 * (j 0).val = 2048 * (t.val / 8) + (j 0).val
    rw [(idx3 t).1]; omega
  | ⟨1, _⟩ =>
    show win0_3.index t 1 * 256 + 1 * (j 1).val = (j 1).val
    rw [(idx3 t).2]; omega

/-- So point 8 j + i contributes tile (i, j)'s total. -/
theorem contrib_eq (c : Dev nD) (j i : Fin 8) :
    contrib m c (8 * j.val + i.val)
      = Cert.Pmf.tileErr (m ((c : Thread nD τ).loc main_arg0)) (m ((c : Thread nD τ).loc main_arg3))
          (m ((c : Thread nD τ).loc main_arg1)) (m ((c : Thread nD τ).loc main_arg2)) i j := by
  have hN : cfg0.N = 64 := N_0
  have h : 8 * j.val + i.val < cfg0.N := by have := j.isLt; have := i.isLt; omega
  have hr : rowTile ⟨8 * j.val + i.val, h⟩ = i :=
    Fin.ext (by show (8 * j.val + i.val) % 8 = i.val; have := i.isLt; omega)
  have hc : colTile ⟨8 * j.val + i.val, h⟩ = j :=
    Fin.ext (by show (8 * j.val + i.val) / 8 = j.val; have := i.isLt; omega)
  unfold contrib
  rw [dif_pos h, rblk_eq, wblk_eq, ublk_eq, vblk_eq, hr, hc]
  rfl

end Cert.KernelIdeal.PmfValue

end
-- ==== Proof.Accum.lean ====
/-
  The accumulator across the grid.  After point n it carries, on lane 0, the running sum of the tiles'
  contributions since the last reset, and zero on the other 127 lanes: a reset point stores the zero vector and
  applies the update to it; every other point applies the update to what the point before left; an update adds the
  tile's total on lane 0 only.  At a column tile's last point the output block receives the same vector.
-/
import proofs.«153075_j3925600109323_1_alg».proof.Proof.Pieces
import proofs.«153075_j3925600109323_1_alg».proof.Proof.Payload
import proofs.«153075_j3925600109323_1_alg».proof.Proof.Blocks

noncomputable section

namespace Cert.KernelIdeal.PmfValue

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- The update applied to a vector that carries `s` on lane 0: it carries `s` plus the tile's total. -/
theorem update_lanes (v3 : Vec Ideal S1024x256 .bf16) (v5 : Vec Ideal S2048x256 .bf16) (v9 v12 : Vec Ideal S1024x2048 .f32) (s : EReal) :
    k0_pay2 (F := Ideal) v3 v5 v9 v12 (Cert.Pmf.lanes s) = Cert.Pmf.lanes (s + Cert.Pmf.blockErr v9 v12 v3 v5) := by
  funext y
  rw [pay2_apply]
  unfold Cert.Pmf.lanes
  by_cases hy : (y 2).val = 0
  · rw [if_pos hy, if_pos hy, if_pos hy]
  · rw [if_neg hy, if_neg hy, if_neg hy, add_zero]

/-- The update applied to the zero vector the reset stores: the tile's total on lane 0. -/
theorem update_zero (v3 : Vec Ideal S1024x256 .bf16) (v5 : Vec Ideal S2048x256 .bf16) (v9 v12 : Vec Ideal S1024x2048 .f32) :
    k0_pay2 (F := Ideal) v3 v5 v9 v12 (k0_pay1 (F := Ideal)) = Cert.Pmf.lanes (Cert.Pmf.blockErr v9 v12 v3 v5) := by
  funext y
  rw [pay2_apply, pay1_apply, zero_add]

/-- What a reset point leaves in the accumulator, -/
theorem scratch_A (c : Dev nD) (t : Fin cfg0.N) (h0 : t.val % 8 = 0) (h1 : ¬t.val % 8 = 7) :
    (outsAt0 m c t.val t.isLt).2
      = k0_pay2 (F := Ideal) (ublk m c t) (vblk m c t) (rblk m c t) (wblk m c t) (k0_pay1 (F := Ideal)) := by
  rw [outsAt0_A m c t h0 h1]
  dsimp only
  exact sout_A (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)

/-- a middle point, -/
theorem scratch_B (c : Dev nD) (t : Fin cfg0.N) (h0 : ¬t.val % 8 = 0) (h1 : ¬t.val % 8 = 7) :
    (outsAt0 m c t.val t.isLt).2
      = k0_pay2 (F := Ideal) (ublk m c t) (vblk m c t) (rblk m c t) (wblk m c t)
          (outsAt0 m c (t.val - 1) (Nat.lt_of_le_of_lt (Nat.sub_le _ _) t.isLt)).2 := by
  rw [outsAt0_B m c t h0 h1]
  dsimp only
  exact sout_B (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t)
    (outsAt0 m c (t.val - 1) (Nat.lt_of_le_of_lt (Nat.sub_le _ _) t.isLt)).2

/-- and a column tile's last point; -/
theorem scratch_C (c : Dev nD) (t : Fin cfg0.N) (h0 : ¬t.val % 8 = 0) (h1 : t.val % 8 = 7) :
    (outsAt0 m c t.val t.isLt).2
      = k0_pay2 (F := Ideal) (ublk m c t) (vblk m c t) (rblk m c t) (wblk m c t)
          (outsAt0 m c (t.val - 1) (Nat.lt_of_le_of_lt (Nat.sub_le _ _) t.isLt)).2 := by
  rw [outsAt0_C m c t h0 h1]
  dsimp only
  exact sout_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t)
    (outsAt0 m c (t.val - 1) (Nat.lt_of_le_of_lt (Nat.sub_le _ _) t.isLt)).2

/-- there the output block receives the same vector. -/
theorem outblk_C (c : Dev nD) (t : Fin cfg0.N) (h0 : ¬t.val % 8 = 0) (h1 : t.val % 8 = 7) :
    (outsAt0 m c t.val t.isLt).1
      = k0_pay2 (F := Ideal) (ublk m c t) (vblk m c t) (rblk m c t) (wblk m c t)
          (outsAt0 m c (t.val - 1) (Nat.lt_of_le_of_lt (Nat.sub_le _ _) t.isLt)).2 := by
  rw [outsAt0_C m c t h0 h1]
  dsimp only
  exact out_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t)
    (outsAt0 m c (t.val - 1) (Nat.lt_of_le_of_lt (Nat.sub_le _ _) t.isLt)).2

/-- The contribution of a point inside the grid is its blocks' total. -/
theorem contrib_of_lt (c : Dev nD) (t : Fin cfg0.N) :
    contrib m c t.val = Cert.Pmf.blockErr (rblk m c t) (wblk m c t) (ublk m c t) (vblk m c t) := by
  unfold contrib
  rw [dif_pos t.isLt]

/-- THE ACCUMULATOR after point `n`: the running sum since the last reset on lane 0, zero elsewhere — by induction on
    the point. -/
theorem scratch_eq (c : Dev nD) : ∀ (n : ℕ) (h : n < cfg0.N),
    (outsAt0 m c n h).2 = Cert.Pmf.lanes (Cert.Pmf.runSum (contrib m c) n)
  | 0, h => by
    rw [scratch_A m c ⟨0, h⟩ rfl (show ¬(0 : ℕ) % 8 = 7 by decide), update_zero, ← contrib_of_lt m c ⟨0, h⟩]
    rfl
  | n + 1, h => by
    have ih := scratch_eq c n (Nat.lt_of_succ_lt h)
    by_cases h0 : (n + 1) % 8 = 0
    · have h1 : ¬(n + 1) % 8 = 7 := by omega
      rw [scratch_A m c ⟨n + 1, h⟩ h0 h1, update_zero, ← contrib_of_lt m c ⟨n + 1, h⟩, Cert.Pmf.runSum, if_pos h0]
    · have hstep : (outsAt0 m c (n + 1) h).2
          = k0_pay2 (F := Ideal) (ublk m c ⟨n + 1, h⟩) (vblk m c ⟨n + 1, h⟩) (rblk m c ⟨n + 1, h⟩) (wblk m c ⟨n + 1, h⟩)
              (outsAt0 m c n (Nat.lt_of_succ_lt h)).2 := by
        by_cases h1 : (n + 1) % 8 = 7
        · exact scratch_C m c ⟨n + 1, h⟩ h0 h1
        · exact scratch_B m c ⟨n + 1, h⟩ h0 h1
      rw [hstep, ih, update_lanes, ← contrib_of_lt m c ⟨n + 1, h⟩, Cert.Pmf.runSum, if_neg h0]

/-- The output block stored at a column tile's last point is the accumulator there. -/
theorem outblk_eq (c : Dev nD) (t : Fin cfg0.N) (h1 : t.val % 8 = 7) :
    (outsAt0 m c t.val t.isLt).1 = Cert.Pmf.lanes (Cert.Pmf.runSum (contrib m c) t.val) := by
  have h0 : ¬t.val % 8 = 0 := by omega
  rw [outblk_C m c t h0 h1, ← scratch_C m c t h0 h1]
  exact scratch_eq m c t.val t.isLt

end Cert.KernelIdeal.PmfValue

end
-- ==== Proof.KernelValue.lean ====
/-
  From blocks to the array, and through the host operations after the region.

  The output window's block at point t is block (t / 8, 0, 0) of the 8 × 1 × 128 result array, written back at the
  eight points ≡ 7 (mod 8); what is written there is the accumulator, which carries the column tile's running sum
  on lane 0 (`outblk_eq`).  These eight blocks tile the array, so the array ends holding `outArr`.  The host then
  sums the array and adds the two regularisers, which it computes from the row and column factors alone
  (`hostTail`).
-/
import proofs.«153075_j3925600109323_1_alg».proof.Proof.Accum
import Idealize.ShloMosaic.Lib.Pipeline.Value
import Idealize.ShloMosaic.Lib.StableHlo.Run

noncomputable section

namespace Cert.KernelIdeal.PmfValue

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- The output window's block index at every point: (t / 8, 0, 0). -/
theorem idx_out : ∀ t : Fin cfg0.N, win0_4.index t (0 : Fin 3) = t.val / 8 ∧ win0_4.index t (1 : Fin 3) = 0
    ∧ win0_4.index t (2 : Fin 3) = 0 :=
  (by decide +kernel : ∀ t : Fin grid0.N, _)

/-- What a write-back writes is its block of `outArr`. -/
theorem flushed_eq (c : Dev nD) (t : Fin cfg0.N) (hf : (cfg0.win 4).flush t = true) :
    (dats m 0 c).flushed 4 t = ((cfg0.win 4).blk t).view.read (Elt Ideal) (Cert.Pmf.outArr (contrib m c)) := by
  have h7 : t.val % 8 = 7 := (flush0_4 t).mp hf
  show (cfg0.win 4).cut (grid0.coords t) ((dats m 0 c).after 4 t) = _
  rw [after0_4, outblk_eq m c t h7]
  obtain ⟨e0, e1, e2⟩ := idx_out t
  funext x
  show Cert.Pmf.lanes (Cert.Pmf.runSum (contrib m c) t.val) ((cfg0.win 4).xinj (grid0.coords t) x)
      = Cert.Pmf.outArr (contrib m c) (((cfg0.win 4).blk t).view.emb x)
  unfold Cert.Pmf.lanes Cert.Pmf.outArr
  have hl : (((cfg0.win 4).xinj (grid0.coords t) x) 2).val = (x 2).val := rfl
  have hx2 : ((((cfg0.win 4).blk t).view.emb x) 2).val = (x 2).val := by
    show win0_4.index t (2 : Fin 3) * 128 + 1 * (x 2).val = (x 2).val
    omega
  have hx0 : ((((cfg0.win 4).blk t).view.emb x) 0).val = t.val / 8 := by
    have hx : (x 0).val < 1 := (x 0).isLt
    show win0_4.index t (0 : Fin 3) * 1 + 1 * (x 0).val = t.val / 8
    omega
  have ht : 8 * (t.val / 8) + 7 = t.val := by omega
  by_cases hx : (x 2).val = 0
  · rw [if_pos (hl.trans hx), if_pos (hx2.trans hx), hx0, ht]
  · rw [if_neg (fun h => hx (hl.symm.trans h)), if_neg (fun h => hx (hx2.symm.trans h))]

/-- An index of the array is in point `t`'s block iff each coordinate is in the block's range on its axis. -/
theorem mem_blk (t : Fin cfg0.N) (i : S8x1x128.Idx) :
    i ∈ ((cfg0.win 4).blk t).view.set ↔ ∀ a : Fin 3, win0_4.index t a * S1x1x128.size a ≤ (i a).val
      ∧ (i a).val < win0_4.index t a * S1x1x128.size a + S1x1x128.size a := by
  show i ∈ ((View.whole main_v2).slice (win0_4.rect t)).set ↔ _
  rw [View.set_slice_whole, Rect.mem_set_unit]
  exact Iff.rfl

/-- Every index of the array lies in the block written back at its column tile's last point. -/
theorem cover (i : S8x1x128.Idx) :
    ∃ t : Fin cfg0.N, (cfg0.win 4).flush t = true ∧ i ∈ ((cfg0.win 4).blk t).view.set := by
  have hi0 : (i 0).val < 8 := (i 0).isLt
  have hi1 : (i 1).val < 1 := (i 1).isLt
  have hi2 : (i 2).val < 128 := (i 2).isLt
  have hN : cfg0.N = 64 := N_0
  have hlt : 8 * (i 0).val + 7 < cfg0.N := by omega
  refine ⟨⟨8 * (i 0).val + 7, hlt⟩, (flush0_4 _).mpr (by show (8 * (i 0).val + 7) % 8 = 7; omega), ?_⟩
  rw [mem_blk]
  obtain ⟨e0, e1, e2⟩ := idx_out ⟨8 * (i 0).val + 7, hlt⟩
  have e0' : win0_4.index ⟨8 * (i 0).val + 7, hlt⟩ (0 : Fin 3) = (i 0).val := by rw [e0]; show (8 * (i 0).val + 7) / 8 = _; omega
  intro a
  match a with
  | ⟨0, _⟩ => show win0_4.index ⟨8 * (i 0).val + 7, hlt⟩ (0 : Fin 3) * 1 ≤ (i 0).val ∧ (i 0).val < win0_4.index ⟨8 * (i 0).val + 7, hlt⟩ (0 : Fin 3) * 1 + 1; omega
  | ⟨1, _⟩ => show win0_4.index ⟨8 * (i 0).val + 7, hlt⟩ (1 : Fin 3) * 1 ≤ (i 1).val ∧ (i 1).val < win0_4.index ⟨8 * (i 0).val + 7, hlt⟩ (1 : Fin 3) * 1 + 1; omega
  | ⟨2, _⟩ => show win0_4.index ⟨8 * (i 0).val + 7, hlt⟩ (2 : Fin 3) * 128 ≤ (i 2).val ∧ (i 2).val < win0_4.index ⟨8 * (i 0).val + 7, hlt⟩ (2 : Fin 3) * 128 + 128; omega

/-- THE RESULT ARRAY after the run. -/
theorem final_out (c : Dev nD) : (dats m 0 c).arrAt 4 cfg0.N = Cert.Pmf.outArr (contrib m c) :=
  (dats m 0 c).arrAt_eq_of_cover 4 (Cert.Pmf.outArr (contrib m c)) (flushed_eq m c) cover

/-- The host operations after the region as one function of the data term `e` and the two factor arrays: the two
    regularisers (a tenth of the sum of the rows' Euclidean norms) added to `e`, in the program's grouping. -/
def hostTail (e : FVec Ideal S_ .f32) (a1 : FVec Ideal S8192x256 .f32) (a2 : FVec Ideal S16384x256 .f32) : FVec Ideal S_ .f32 :=
  addf (addf e
    (mulf (constant (F := Ideal) S_ .f32 0x3DCCCCCD#32)
      (Host.reduceAdd (F := Ideal) (Host.sqrt (F := Ideal) (Host.reduceAdd (F := Ideal) (mulf a1 a1)
        (constant (F := Ideal) S_ .f32 0x00000000#32) reducesTo_S8192x256_S8192_d1 h_S_))
        (constant (F := Ideal) S_ .f32 0x00000000#32) reducesTo_S8192_S_d0 h_S_)))
    (mulf (constant (F := Ideal) S_ .f32 0x3DCCCCCD#32)
      (Host.reduceAdd (F := Ideal) (Host.sqrt (F := Ideal) (Host.reduceAdd (F := Ideal) (mulf a2 a2)
        (constant (F := Ideal) S_ .f32 0x00000000#32) reducesTo_S16384x256_S16384_d1 h_S_))
        (constant (F := Ideal) S_ .f32 0x00000000#32) reducesTo_S16384_S_d0 h_S_))

/-- The program's result after the host operations that follow the region. -/
theorem tail_eq (c : Dev nD) :
    Pipeline.afterTail₀ cfgs (dats m) 0 (V0 m) [hostOps1, hostOps1_1, hostOps1_2, hostOps1_3, hostOps1_4] c main_v11
      = hostTail (Host.reduceAdd (F := Ideal) (Cert.Pmf.outArr (contrib m c) : FVec Ideal S8x1x128 .f32)
          (constant (F := Ideal) S_ .f32 0x00000000#32) reducesTo_S8x1x128_S_d0_1_2 h_S_)
          (m ((c : Thread nD τ).loc main_arg1)) (m ((c : Thread nD τ).loc main_arg2)) := by
  unfold Pipeline.afterTail₀
  simp only [hostOps1, hostOps1_1, hostOps1_2, hostOps1_3, hostOps1_4, List.flatten_cons, List.flatten_nil, List.append_nil,
    List.cons_append, List.nil_append]
  after_results
  have hA : Pipeline.withArrays (cfgs 0).spec c (V0 m c) (fun w => (dats m 0 c).arrAt w (cfgs 0).N) (Proc.devRef .tc main_v2)
      = Cert.Pmf.outArr (contrib m c) :=
    (Pipeline.withArrays_arr spec0 launch0.win.arr_inj c _ _ 4).trans (final_out m c)
  have h1 : Pipeline.withArrays (cfgs 0).spec c (V0 m c) (fun w => (dats m 0 c).arrAt w (cfgs 0).N) (Proc.devRef .tc main_arg1)
      = m ((c : Thread nD τ).loc main_arg1) :=
    (Pipeline.withArrays_of_ne _ c (V0 m c) _ main_arg1 (by exact (by decide : ∀ w, Pipeline.arrRef spec0 w ≠ main_arg1))).trans
      (V_main_arg1 m c)
  have h2 : Pipeline.withArrays (cfgs 0).spec c (V0 m c) (fun w => (dats m 0 c).arrAt w (cfgs 0).N) (Proc.devRef .tc main_arg2)
      = m ((c : Thread nD τ).loc main_arg2) :=
    (Pipeline.withArrays_of_ne _ c (V0 m c) _ main_arg2 (by exact (by decide : ∀ w, Pipeline.arrRef spec0 w ≠ main_arg2))).trans
      (V_main_arg2 m c)
  refine Eq.trans (b := hostTail
      (Host.reduceAdd (F := Ideal)
        (Pipeline.withArrays (cfgs 0).spec c (V0 m c) (fun w => (dats m 0 c).arrAt w (cfgs 0).N) (Proc.devRef .tc main_v2))
        (constant (F := Ideal) S_ .f32 0x00000000#32) reducesTo_S8x1x128_S_d0_1_2 h_S_)
      (Pipeline.withArrays (cfgs 0).spec c (V0 m c) (fun w => (dats m 0 c).arrAt w (cfgs 0).N) (Proc.devRef .tc main_arg1))
      (Pipeline.withArrays (cfgs 0).spec c (V0 m c) (fun w => (dats m 0 c).arrAt w (cfgs 0).N) (Proc.devRef .tc main_arg2))) rfl ?_
  rw [hA, h1, h2]

end Cert.KernelIdeal.PmfValue

end
-- ==== Proof.SumLaws.lean ====
/-
  Three facts about finite sums over the extended reals, none of which needs finiteness: addition there is
  commutative and associative, so sums may be regrouped and re-indexed freely.
-/
import proofs.«153075_j3925600109323_1_alg».proof.Proof.Spec

noncomputable section

namespace Cert.Pmf

open Idealize.ShloMosaic Idealize.ShloMosaic.ValueIdx

/-- Row n of the matrix is row r of row tile i, with n = 1024 i + r: the pairs (i, r) are the rows, each once. -/
private def rowEquiv : Fin 8 × Fin 1024 ≃ Fin 8192 where
  toFun p := ⟨1024 * p.1.val + p.2.val, by have := p.1.isLt; have := p.2.isLt; omega⟩
  invFun n := (⟨n.val / 1024, by have := n.isLt; omega⟩, ⟨n.val % 1024, by omega⟩)
  left_inv p := by
    have h1 := p.1.isLt
    have h2 := p.2.isLt
    refine Prod.ext (Fin.ext ?_) (Fin.ext ?_)
    · show (1024 * p.1.val + p.2.val) / 1024 = p.1.val
      omega
    · show (1024 * p.1.val + p.2.val) % 1024 = p.2.val
      omega
  right_inv n := by
    refine Fin.ext ?_
    show 1024 * (n.val / 1024) + n.val % 1024 = n.val
    omega

/-- Column k of the matrix is column c of column tile j, with k = 2048 j + c: the pairs (j, c) are the columns, each once. -/
private def colEquiv : Fin 8 × Fin 2048 ≃ Fin 16384 where
  toFun p := ⟨2048 * p.1.val + p.2.val, by have := p.1.isLt; have := p.2.isLt; omega⟩
  invFun n := (⟨n.val / 2048, by have := n.isLt; omega⟩, ⟨n.val % 2048, by omega⟩)
  left_inv p := by
    have h1 := p.1.isLt
    have h2 := p.2.isLt
    refine Prod.ext (Fin.ext ?_) (Fin.ext ?_)
    · show (2048 * p.1.val + p.2.val) / 2048 = p.1.val
      omega
    · show (2048 * p.1.val + p.2.val) % 2048 = p.2.val
      omega
  right_inv n := by
    refine Fin.ext ?_
    show 2048 * (n.val / 2048) + n.val % 2048 = n.val
    omega

/-- The whole matrix's total is the sum of the 64 tiles' contributions: row n = 1024 i + r, column k = 2048 j + c.
    The row sum is re-indexed over the pairs (i, r) and the column sum over the pairs (j, c); the four sums are then
    reordered so that the two tile indices come first, and what is left inside is tile (i, j)'s own double sum. -/
theorem totalErr_eq_tiles (R W : SR.Idx → EReal) (U : SU.Idx → EReal) (I : SI.Idx → EReal) :
    totalErr R W U I = ∑ j : Fin 8, ∑ i : Fin 8, tileErr R W U I i j := by
  -- the summand at row n, column k
  let F : Fin 8192 → Fin 16384 → EReal := fun n k =>
    entryErr (R (ix2 n k)) (W (ix2 n k)) (fun d => U (ix2 n d)) (fun d => I (ix2 k d))
  calc totalErr R W U I
      = ∑ n : Fin 8192, ∑ k : Fin 16384, F n k := rfl
    _ = ∑ i : Fin 8, ∑ r : Fin 1024, ∑ k : Fin 16384, F (rowEquiv (i, r)) k := by
          rw [← Equiv.sum_comp rowEquiv, Fintype.sum_prod_type]
    _ = ∑ i : Fin 8, ∑ r : Fin 1024, ∑ j : Fin 8, ∑ c : Fin 2048, F (rowEquiv (i, r)) (colEquiv (j, c)) := by
          refine Finset.sum_congr rfl fun i _ => Finset.sum_congr rfl fun r _ => ?_
          rw [← Equiv.sum_comp colEquiv, Fintype.sum_prod_type]
    _ = ∑ i : Fin 8, ∑ j : Fin 8, ∑ r : Fin 1024, ∑ c : Fin 2048, F (rowEquiv (i, r)) (colEquiv (j, c)) := by
          refine Finset.sum_congr rfl fun i _ => Finset.sum_comm
    _ = ∑ j : Fin 8, ∑ i : Fin 8, ∑ r : Fin 1024, ∑ c : Fin 2048, F (rowEquiv (i, r)) (colEquiv (j, c)) :=
          Finset.sum_comm
    _ = ∑ j : Fin 8, ∑ i : Fin 8, tileErr R W U I i j := by
          refine Finset.sum_congr rfl fun j _ => Finset.sum_congr rfl fun i _ => ?_
          rfl

/-- At a point ≡ 0 (mod 8) the running sum starts afresh. -/
private theorem runSum_reset (P : ℕ → EReal) (n : ℕ) (h : n % 8 = 0) : runSum P n = P n := by
  cases n with
  | zero => rfl
  | succ m => rw [runSum, if_pos h]

/-- At any other point it adds the point's contribution to the previous running sum. -/
private theorem runSum_step (P : ℕ → EReal) (n : ℕ) (h : ¬ (n + 1) % 8 = 0) :
    runSum P (n + 1) = runSum P n + P (n + 1) := by
  rw [runSum, if_neg h]

/-- Within a column tile, the running sum at inner point i is the sum of the contributions of points 0 … i:
    induction on i, the reset at i = 0 and one more term at each later point. -/
private theorem runSum_prefix (P : ℕ → EReal) (j : ℕ) :
    ∀ i : ℕ, i < 8 → runSum P (8 * j + i) = ∑ i' ∈ Finset.range (i + 1), P (8 * j + i') := by
  intro i
  induction i with
  | zero =>
    intro _
    rw [Finset.sum_range_one]
    exact runSum_reset P _ (by omega)
  | succ k ih =>
    intro hk
    rw [Finset.sum_range_succ, ← ih (by omega)]
    have e : 8 * j + (k + 1) = (8 * j + k) + 1 := by omega
    rw [e]
    exact runSum_step P _ (by omega)

/-- At a column tile's last point the running sum is the sum of the tile's eight contributions. -/
theorem runSum_last (P : ℕ → EReal) (j : ℕ) : runSum P (8 * j + 7) = ∑ i : Fin 8, P (8 * j + i.val) := by
  rw [runSum_prefix P j 7 (by omega)]
  exact (Fin.sum_univ_eq_sum_range (fun i => P (8 * j + i)) 8).symm

/-- A rank-3 index set is the product of its three coordinate ranges … -/
private def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
private theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- Summing the result array: only lane 0 of each column tile's accumulator contributes. The sum over the array is the
    triple sum over (column tile, the middle axis's one point, lane); the lane sum keeps its lane-0 term alone, which is
    the running sum at the tile's last point, the sum of the tile's eight contributions. -/
theorem sum_outArr (P : ℕ → EReal) : ∑ y : SO.Idx, outArr P y = ∑ j : Fin 8, ∑ i : Fin 8, P (8 * j.val + i.val) := by
  refine (sum_idx3 (n0 := 8) (n1 := 1) (n2 := 128) (outArr P)).trans ?_
  refine Finset.sum_congr rfl fun j _ => ?_
  rw [Fin.sum_univ_one, ← runSum_last P j.val]
  rw [Finset.sum_eq_single (0 : Fin 128)]
  · show (if ((0 : Fin 128) : ℕ) = 0 then runSum P (8 * j.val + 7) else 0) = _
    exact if_pos rfl
  · intro c _ hc
    have hc' : ¬ c.val = 0 := fun h => hc (Fin.ext h)
    show (if c.val = 0 then runSum P (8 * j.val + 7) else 0) = 0
    rw [if_neg hc']
  · intro h
    exact absurd (Finset.mem_univ _) h

end Cert.Pmf

end
-- ==== Proof.Total.lean ====
/-
  The host's sum of the kernel's result array.  The array carries, on lane 0 of column tile j, the running sum at
  the tile's last point; summing all 8 × 1 × 128 entries therefore adds up the 64 tiles' contributions, which is the
  whole matrix's total.
-/
import proofs.«153075_j3925600109323_1_alg».proof.Proof.SumLaws
import proofs.«153075_j3925600109323_1_alg».proof.Proof.Blocks
import Idealize.ShloMosaic.PureOps.Ideal.Laws

noncomputable section

namespace Cert.KernelIdeal.PmfValue

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- The reduce over all three axes of the result array, from the zero initial value, is that value plus `totalErr`
    of the four argument arrays. -/
theorem outsum_eq (c : Dev nD) :
    Host.reduceAdd (F := Ideal) (Cert.Pmf.outArr (contrib m c) : FVec Ideal S8x1x128 .f32)
        (constant (F := Ideal) S_ .f32 0x00000000#32) reducesTo_S8x1x128_S_d0_1_2 h_S_
      = fun _ => Ideal.ofBits .f32 0x00000000#32
          + Cert.Pmf.totalErr (m ((c : Thread nD τ).loc main_arg0)) (m ((c : Thread nD τ).loc main_arg3))
              (m ((c : Thread nD τ).loc main_arg1)) (m ((c : Thread nD τ).loc main_arg2)) := by
  funext i
  simp only [Host.reduceAdd, Ideal.hostReduceAdd_def]
  -- a reduce over every axis into the one-point shape is the initial value plus the sum over every index
  rw [Ideal.hostReduceAdd_total reducesTo_S8x1x128_S_d0_1_2 (fun b => b.elim0)]
  -- the initial value is the zero word on both sides
  refine congrArg (Ideal.ofBits .f32 0x00000000#32 + ·) ?_
  -- the array's sum is the sum over (column tile j, row tile i) of point 8 j + i's contribution,
  refine (Cert.Pmf.sum_outArr (contrib m c)).trans ?_
  -- the whole matrix's total is the sum of the 64 tiles' totals,
  rw [Cert.Pmf.totalErr_eq_tiles]
  -- and point 8 j + i contributes tile (i, j)'s total
  exact Finset.sum_congr rfl fun j _ => Finset.sum_congr rfl fun i _ => contrib_eq m c j i

end Cert.KernelIdeal.PmfValue

end
-- ==== Proof.KernelRun.lean ====
/-
  The idealized kernel's run, read: the program's result is the host tail applied to the zero initial value plus
  the whole-matrix total of the masked squared residuals, and the four argument arrays end unchanged.
-/
import proofs.«153075_j3925600109323_1_alg».proof.Proof.KernelValue
import proofs.«153075_j3925600109323_1_alg».proof.Proof.Total

noncomputable section

namespace Cert.KernelIdeal.PmfValue

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- The loss: the data term (zero plus the total of the masked squared residuals) plus the two regularisers. -/
def result (c : Dev nD) : FVec Ideal S_ .f32 :=
  hostTail (fun _ => Ideal.ofBits .f32 0x00000000#32
      + Cert.Pmf.totalErr (m ((c : Thread nD τ).loc main_arg0)) (m ((c : Thread nD τ).loc main_arg3))
          (m ((c : Thread nD τ).loc main_arg1)) (m ((c : Thread nD τ).loc main_arg2)))
    (m ((c : Thread nD τ).loc main_arg1)) (m ((c : Thread nD τ).loc main_arg2))

/-- What the host operations after the region leave in the result buffer is the loss. -/
theorem tail_result (c : Dev nD) :
    Pipeline.afterTail₀ cfgs (dats m) 0 (V0 m) [hostOps1, hostOps1_1, hostOps1_2, hostOps1_3, hostOps1_4] c main_v11
      = result m c := by
  rw [tail_eq m c, outsum_eq m c]
  rfl

/-- Every weakly fair execution of the idealized kernel's program terminates with the loss in its result buffer and
    the arguments unchanged: the generated frame run, its post read through `tail_result`. -/
theorem run : θ_run defs (onTc (τ := τ) (main (F := Ideal))) ⟨m, fun _ => 0, ρ⟩ (fun r => ∀ c : Dev nD,
      r.2.mem ((c.tc : Thread nD τ).loc main_v11) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
      ⟨((h c).2 main_v11 (Pipeline.mem_restRefs_of main_v11 (by decide) (by decide))).trans (tail_result m c),
        ((h c).1 0).trans (((dats m 0 c).arrAt_in 0 rfl _).trans ((A_eq m c 0).trans (V_main_arg0 m c))),
        ((h c).2 main_arg1 (Pipeline.mem_restRefs_of main_arg1 (by decide) (by decide))).trans (W_main_arg1 m (dats m) c),
        ((h c).2 main_arg2 (Pipeline.mem_restRefs_of main_arg2 (by decide) (by decide))).trans (W_main_arg2 m (dats m) c),
        ((h c).1 1).trans (((dats m 0 c).arrAt_in 1 rfl _).trans ((A_eq m c 1).trans (V_main_arg3 m c)))⟩)
    (run_main m ρ)

end Cert.KernelIdeal.PmfValue

end
-- ==== Proof.RefValue.lean ====
/-
  The reference's data term, read at the ideal instance: the host's sum over the whole 8192 × 16384 matrix of the
  masked squared residuals is the initial value plus `totalErr`.
-/
import proofs.«153075_j3925600109323_1_alg».proof.Proof.Spec
import proofs.«153075_j3925600109323_1_alg».proof.Proof.Gen.ReferenceIdeal.Run
import proofs.«153075_j3925600109323_1_alg».proof.Proof.Gen.ReferenceIdeal.Read
import Idealize.ShloMosaic.Lib.ValueIdx
import Idealize.ShloMosaic.PureOps.Ideal.Laws

noncomputable section

namespace Cert.ReferenceIdeal.RefValue

open Idealize.ShloMosaic Idealize.ShloMosaic.ValueIdx Cert.ReferenceIdeal Cert.ReferenceIdeal.Read

/-- The reduce over both axes of `((R − U·Iᵀ)·(R − U·Iᵀ))·W`, from the zero initial value: entry (n, k) of the
    product is `∑ d, U n d · I k d`, so the summand at (n, k) is `entryErr`. -/
theorem err_eq (x0 : (⟨S8192x16384, .f32⟩ : BufTy).Contents (Elt Ideal)) (x1 : (⟨S8192x256, .f32⟩ : BufTy).Contents (Elt Ideal))
    (x2 : (⟨S16384x256, .f32⟩ : BufTy).Contents (Elt Ideal)) (x3 : (⟨S8192x16384, .f32⟩ : BufTy).Contents (Elt Ideal)) :
    val_main_v4 (F := Ideal) x0 x1 x2 x3
      = fun _ => Ideal.ofBits .f32 0x00000000#32 + Cert.Pmf.totalErr x0 x3 x1 x2 := by
  funext i
  rw [val_main_v4_apply, val_main_cst_apply]
  -- the initial value is the zero word on both sides; what remains is the sum over the index set
  refine congrArg (Ideal.ofBits .f32 0x00000000#32 + ·) ?_
  -- a sum over the rank-2 index set is the double sum over (row n, column k)
  rw [ValueIdx.sum_idx2]
  unfold Cert.Pmf.totalErr
  refine Finset.sum_congr rfl fun n _ => Finset.sum_congr rfl fun k _ => ?_
  -- entry (n, k): ((R − ∑ d, U n d · I k d) · (R − ∑ d, U n d · I k d)) · W
  rw [val_main_v3_apply, val_main_v2_apply, val_main_v1_apply, val_main_v0_apply]
  -- the contraction reads the row factors at (n, d) and the column factors at (k, d)
  have el : ∀ d : Fin 256, lidx_main_v0 (ix2 n k) d = ix2 n d := fun d =>
    funext fun a => Fin.ext (by match a with | ⟨0, _⟩ => rfl | ⟨1, _⟩ => rfl)
  have er : ∀ d : Fin 256, ridx_main_v0 (ix2 n k) d = ix2 k d := fun d =>
    funext fun a => Fin.ext (by match a with | ⟨0, _⟩ => rfl | ⟨1, _⟩ => rfl)
  simp only [el, er]
  rfl

end Cert.ReferenceIdeal.RefValue

end
-- ==== Proof.lean ====
/-
  The kernel streams an 8192 × 16384 rating matrix and its mask through 1024 × 2048 tiles, forms each tile's
  predictions as a product of the tile's row factors with its column factors, and accumulates the masked squared
  residuals of a column of tiles on lane 0 of a 128-lane vector; the host sums the eight column tiles' vectors and
  adds two regularisers computed from the factor matrices.  The reference computes the same loss in one piece:
  the product of the two factor matrices, the masked squared residuals, their sum over the whole matrix, and the
  same two regularisers.

  Over the extended reals the two are one function of the four arguments: the kernel's tiles partition the matrix,
  a tile's row-by-column products are the entries of the full product (a change of float format is the identity
  there), and regrouping a finite sum needs only that addition is commutative and associative — which holds on
  the extended reals without any finiteness, so the precondition is never opened.  The one-hot lane vector times a
  tile's total is the total on lane 0 and zero elsewhere because x · 1 = x and x · 0 = 0 for every extended real.

  The three frames are the generated ones (the reference's is its generated run with the result dropped); the
  ideal pass rewrote nothing, so `preserves` is trivial.
-/
import proofs.«153075_j3925600109323_1_alg».proof.Defs
import proofs.«153075_j3925600109323_1_alg».proof.Proof.Gen.Kernel
import proofs.«153075_j3925600109323_1_alg».proof.Proof.Gen.Kernel.Frame
import proofs.«153075_j3925600109323_1_alg».proof.Proof.Gen.KernelIdeal
import proofs.«153075_j3925600109323_1_alg».proof.Proof.Gen.KernelIdeal.Frame
import proofs.«153075_j3925600109323_1_alg».proof.Proof.Gen.ReferenceIdeal
import proofs.«153075_j3925600109323_1_alg».proof.Proof.Gen.ReferenceIdeal.Run
import proofs.«153075_j3925600109323_1_alg».proof.Proof.Gen.ReferenceIdeal.Read
import proofs.«153075_j3925600109323_1_alg».proof.Proof.Gen.Pre_finite_inputs
import proofs.«153075_j3925600109323_1_alg».proof.Proof.KernelRun
import proofs.«153075_j3925600109323_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the loss of the (agreeing) arguments: the kernel's run leaves `result`; the reference's
    data term is the zero initial value plus the same whole-matrix total (`err_eq`), and its two regularisers are
    the kernel's host tail's, term for term. -/
theorem algebraic : Cert.algebraic_KernelIdeal_ReferenceIdeal := by
  intro m ρ m' ρ' _ hagree
  refine ⟨fun c => Cert.KernelIdeal.PmfValue.result m c, Cert.KernelIdeal.PmfValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, (hagree c).1, (hagree c).2.1, (hagree c).2.2.1, (hagree c).2.2.2]
  unfold Cert.ReferenceIdeal.Read.val_main_v12 Cert.ReferenceIdeal.Read.val_main_v11
  rw [Cert.ReferenceIdeal.RefValue.err_eq]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
